-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1440x64x36x36 : Shape := ⟨4, ![1440, 64, 36, 36]⟩
abbrev S_ : Shape := ⟨0, ![]⟩

class Facts : Prop where
  bcast_S_S1440x64x36x36 : S_.BroadcastsInDim S1440x64x36x36 (![] : Fin 0 → Fin S1440x64x36x36.rank)
  reducesTo_S1440x64x36x36_S_d0_1_2_3 : S1440x64x36x36.ReducesTo [0, 1, 2, 3] S_
  h_S_ : 0 < S_.numel

variable [Facts]

def fn {F : FTy → Type} [FloatOps F] (main_arg0 : FVec F S1440x64x36x36 .f32) : IVec S_ 1 :=
  let main_v0 : FVec F S1440x64x36x36 .f32 := Host.absf main_arg0
  let main_cst : FVec F S_ .f32 := constant S_ .f32 0x7F800000#32
  let main_v1 : FVec F S1440x64x36x36 .f32 := broadcastInDim S1440x64x36x36 ![] bcast_S_S1440x64x36x36 main_cst
  let main_v2 : IVec S1440x64x36x36 1 := cmpf .olt main_v0 main_v1
  let main_c : IVec S_ 1 := constantI S_ 1 1#1
  let main_v3 : IVec S_ 1 := (fun x v => Host.reduce IntOp.andi x v reducesTo_S1440x64x36x36_S_d0_1_2_3 h_S_) main_v2 main_c
  main_v3
-- ==== Kernel.lean ====
abbrev S1440x64x36x36 : Shape := ⟨4, ![1440, 64, 36, 36]⟩
abbrev S1x21x36x36 : Shape := ⟨4, ![1, 21, 36, 36]⟩

abbrev nBuf : Space → Nat
  | .hbm => 2
  | .vmem => 2
  | .smem => 0
  | _ => 0

abbrev bufTy : (tb : Table) → Fin (tcTables nBuf tb) → BufTy
  | .hbm, ⟨0, _⟩ => ⟨S1440x64x36x36, .f32⟩
  | .hbm, ⟨1, _⟩ => ⟨S1440x64x36x36, .f32⟩
  | .local _ .vmem, ⟨0, _⟩ => ⟨S1x21x36x36, .f32⟩
  | .local _ .vmem, ⟨1, _⟩ => ⟨S1x21x36x36, .f32⟩
  | _, _ => ⟨S1440x64x36x36, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨2, ![8, 2], ![false, false]⟩

def cc0_transform_1 (i : grid0.Coords) : Fin 4 → Nat :=
  let arg0 : BitVec 32 := BitVec.ofNat 32 (i 0).val
  let arg1 : BitVec 32 := BitVec.ofNat 32 (i 1).val
  let c180_i32 : BitVec 32 := 180#32
  let v0 : BitVec 32 := Scalar.muli arg0 c180_i32
  let c179_i32 : BitVec 32 := 179#32
  let v1 : BitVec 32 := Scalar.muli arg1 c179_i32
  let v2 : BitVec 32 := Scalar.addi v0 v1
  let c0_i32 : BitVec 32 := 0#32
  let c0_i32_0 : BitVec 32 := 0#32
  let c0_i32_1 : BitVec 32 := 0#32
  ![v2.toNat, arg1.toNat, c0_i32.toNat, c0_i32_0.toNat]

abbrev stage0_0 : Fin 2 → Memref sig .tc .vmem S1x21x36x36 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

class Facts₀ : Prop where
  inb_S1x21x36x36_S1x21x36x36_0_0_0_0 : ∀ a, (![0, 0, 0, 0] : Fin 4 → Nat) a + S1x21x36x36.size a ≤ S1x21x36x36.size a
  h_S1x21x36x36 : 0 < S1x21x36x36.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hstart0_0 : ∀ (i : grid0.Coords) a, cc0_transform_1 i a * S1x21x36x36.size a < S1440x64x36x36.size a
  hwx0_0 : ∀ i : grid0.Coords, EltTy.bits .f32 = 32 ∨ (Rect.unit (s := S1440x64x36x36) (fun a => cc0_transform_1 i a * S1x21x36x36.size a) (fun a => (Pipeline.Clip.of (cc0_transform_1 i a) (S1x21x36x36.size a) (S1440x64x36x36.size a)).extent (S1x21x36x36.size a)) fun a => Pipeline.Clip.inb (Pipeline.Clip.ok_of (hstart0_0 i a))).WholeWords (EltTy.packing .f32)
  hwxs0_0 : ∀ i : grid0.Coords, EltTy.bits .f32 = 32 ∨ (Rect.unit (s := S1x21x36x36) (fun _ => 0) (fun a => (Pipeline.Clip.of (cc0_transform_1 i a) (S1x21x36x36.size a) (S1440x64x36x36.size a)).extent (S1x21x36x36.size a)) fun a => (Nat.zero_add _).trans_le (Pipeline.Clip.extent_le (Pipeline.Clip.ok_of (hstart0_0 i a)))).WholeWords (EltTy.packing .f32)

variable [Facts₀]

abbrev win0_0 : Pipeline.Window sig grid0 :=
  Pipeline.Window.ofSpecClip (Memref.whole main_v0) S1x21x36x36.size cc0_transform_1 reads0_0 true false 2 stage0_0 sem0_0
    hrank0 hreads0_0 hstart0_0 nbuf0_0 (Memref.isWhole_whole _) hwx0_0 hwxs0_0 hstage0_0

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S1440x64x36x36 : Shape := ⟨4, ![1440, 64, 36, 36]⟩
abbrev S8x180x64x36x36 : Shape := ⟨5, ![8, 180, 64, 36, 36]⟩
abbrev S8x180x21x36x36 : Shape := ⟨5, ![8, 180, 21, 36, 36]⟩
abbrev S8x180x22x36x36 : Shape := ⟨5, ![8, 180, 22, 36, 36]⟩
abbrev S_ : Shape := ⟨0, ![]⟩
abbrev S8x1x21x36x36 : Shape := ⟨5, ![8, 1, 21, 36, 36]⟩
abbrev S8x179x21x36x36 : Shape := ⟨5, ![8, 179, 21, 36, 36]⟩

abbrev nBuf : Space → Nat
  | .hbm => 13
  | .vmem => 0
  | .smem => 0
  | _ => 0

abbrev bufTy : (tb : Table) → Fin (tcTables nBuf tb) → BufTy
  | .hbm, ⟨0, _⟩ => ⟨S1440x64x36x36, .f32⟩
  | .hbm, ⟨1, _⟩ => ⟨S8x180x64x36x36, .f32⟩
  | .hbm, ⟨2, _⟩ => ⟨S8x180x21x36x36, .f32⟩
  | .hbm, ⟨3, _⟩ => ⟨S8x180x21x36x36, .f32⟩
  | .hbm, ⟨4, _⟩ => ⟨S8x180x22x36x36, .f32⟩
  | .hbm, ⟨5, _⟩ => ⟨S_, .f32⟩
  | .hbm, ⟨6, _⟩ => ⟨S8x1x21x36x36, .f32⟩
  | .hbm, ⟨7, _⟩ => ⟨S8x179x21x36x36, .f32⟩
  | .hbm, ⟨8, _⟩ => ⟨S8x180x21x36x36, .f32⟩
  | .hbm, ⟨9, _⟩ => ⟨S8x179x21x36x36, .f32⟩
  | .hbm, ⟨10, _⟩ => ⟨S8x180x21x36x36, .f32⟩
  | .hbm, ⟨11, _⟩ => ⟨S8x180x64x36x36, .f32⟩
  | .hbm, ⟨12, _⟩ => ⟨S1440x64x36x36, .f32⟩
  | _, _ => ⟨S1440x64x36x36, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]

class Facts₀ : Prop where
  shapeCasts_S1440x64x36x36_S8x180x64x36x36 : S1440x64x36x36.ShapeCasts S8x180x64x36x36
  slices_S8x180x64x36x36_S8x180x21x36x36_0_0_0_0_0 : S8x180x64x36x36.Slices ![0, 0, 0, 0, 0] S8x180x21x36x36
  slices_S8x180x64x36x36_S8x180x21x36x36_0_0_21_0_0 : S8x180x64x36x36.Slices ![0, 0, 21, 0, 0] S8x180x21x36x36
  slices_S8x180x64x36x36_S8x180x22x36x36_0_0_42_0_0 : S8x180x64x36x36.Slices ![0, 0, 42, 0, 0] S8x180x22x36x36
  bcast_S_S8x1x21x36x36 : S_.BroadcastsInDim S8x1x21x36x36 (![] : Fin 0 → Fin S8x1x21x36x36.rank)
  slices_S8x180x21x36x36_S8x179x21x36x36_0_1_0_0_0 : S8x180x21x36x36.Slices ![0, 1, 0, 0, 0] S8x179x21x36x36
  concatenates_S8x1x21x36x36_S8x179x21x36x36_S8x180x21x36x36_d1 : Shape.Concatenates [S8x1x21x36x36, S8x179x21x36x36] S8x180x21x36x36 1
  slices_S8x180x21x36x36_S8x179x21x36x36_0_0_0_0_0 : S8x180x21x36x36.Slices ![0, 0, 0, 0, 0] S8x179x21x36x36
  concatenates_S8x179x21x36x36_S8x1x21x36x36_S8x180x21x36x36_d1 : Shape.Concatenates [S8x179x21x36x36, S8x1x21x36x36] S8x180x21x36x36 1
  concatenates_S8x180x21x36x36_S8x180x21x36x36_S8x180x22x36x36_S8x180x64x36x36_d2 : Shape.Concatenates [S8x180x21x36x36, S8x180x21x36x36, S8x180x22x36x36] S8x180x64x36x36 2
  shapeCasts_S8x180x64x36x36_S1440x64x36x36 : S8x180x64x36x36.ShapeCasts S1440x64x36x36

variable [Facts₀]

class Facts : Prop extends Facts₀ where

variable [Facts]
-- ==== Proof.Spec.lean ====
/-
  What both programs compute, as one function of the argument array.

  The array is a batch of 8 clips of 180 frames, each frame 64 channels of 36 × 36 values; the first axis
  is the frame counted through the batch, so frame `b` is frame `b % 180` of clip `b / 180`. The result is the
  argument with two slabs of every clip set to zero: the first 21 channels of the clip's first frame, and
  the next 21 channels (21 ≤ channel < 42) of its last frame. Everything else passes through.
-/
import Idealize.ShloMosaic.PureOps.Ideal

namespace Cert.BoundarySlabs

open Idealize.ShloMosaic

/-- The array's shape: 1440 frames, 64 channels, 36 × 36. -/
abbrev Arr : Shape := ⟨4, ![1440, 64, 36, 36]⟩

/-- Frame `b`, channel `ch` lies in a zeroed slab: the first frame of a clip with a channel of the first fold,
    or the last frame of a clip with a channel of the second fold. -/
def onSlab (b ch : Nat) : Prop := (b % 180 = 0 ∧ ch < 21) ∨ (b % 180 = 179 ∧ 21 ≤ ch ∧ ch < 42)

instance (b ch : Nat) : Decidable (onSlab b ch) := by unfold onSlab; infer_instance

/-- The argument with the boundary slabs replaced by `z`. -/
def zeroed {α : Type} (z : α) (x : Arr.Idx → α) : Arr.Idx → α :=
  fun i => if onSlab (i 0).val (i 1).val then z else x i

end Cert.BoundarySlabs
-- ==== Proof.KernelIsSpec.lean ====
/-
  The kernel's result array is the argument with the boundary slabs zeroed.

  The result buffer starts as a copy of the argument. The grid has 16 points, a clip `n` (of 8) and a side `s` (of 2);
  point (n, s) writes back one block of 1 frame × 21 channels × 36 × 36 at frame `180 n + 179 s` and channel block `s`:
  the first frame of clip `n` with channels [0, 21) for `s = 0`, its last frame with channels [21, 42) for `s = 1`.
  The body stores the zero vector over the whole staging block, so every written block is the block of the constant-zero
  array; an index under some block ends at zero, every other index keeps the copy of the argument.
-/
import proofs.«428587_j6330781795061_3_alg».proof.Proof.KernelIdealValueP
import proofs.«428587_j6330781795061_3_alg».proof.Proof.Spec

set_option maxRecDepth 16384

noncomputable section

namespace Cert.KernelIdeal.Slabs

open Cert.KernelIdeal Cert.KernelIdeal.Gen Cert.KernelIdeal.GenP Cert.KernelIdeal.ValueP Cert.BoundarySlabs
open Idealize.ShloMosaic Idealize.ShloMosaic.TcCoe Idealize.ShloMosaic.Tactic Idealize.SL.Sem
open Idealize.ShloMosaic.Pipeline (Dat)

variable {F : FTy → Type} [FloatOps F]
variable (m : (ℓ : Loc nD τ sig) → Buf (Elt F) ℓ) (ρ : Dev nD → PrngReg)

theorem origin : (![0, 0, 0, 0] : Fin 4 → Nat) = fun _ => 0 := funext fun a => by fin_cases a <;> rfl

/-- After the body the staging block holds the zero word everywhere: its one store covers the block. -/
theorem staged_zero (c : Dev nD) (i : grid0.Coords) (arg3 : Memref sig .tc .vmem S1x21x36x36 .f32) (harg3 : arg3.IsWhole) :
    out0_A_0 (F := F) c i arg3 harg3 = fun _ => FloatOps.ofBits .f32 0x00000000#32 := by
  unfold out0_A_0
  rw [View.read_writes_eq_canon _ _ _ (cover0_A_0 c i arg3 harg3)]
  unfold kernelRun0_A
  dsimp only
  sl_unfold_words
  rw [View.canon_unit_zero origin]
  rfl

/-- The constant-zero array. -/
abbrev zeroArr : S1440x64x36x36.Idx → Elt F .f32 := fun _ => FloatOps.ofBits .f32 0x00000000#32

/-- What every point writes back is its block of the constant-zero array. -/
theorem written_back (c : Dev nD) (t : Fin cfg0.N) :
    (dats m 0 c).flushed 0 t = ((cfg0.win 0).blk t).view.read (Elt F) (zeroArr (F := F)) := by
  rw [flushed0_A, staged_zero]
  rfl

/-- The printed index map over the 16 points: point `t` is clip `t / 2`, side `t % 2`; its block sits at frame
    `180 (t / 2) + 179 (t % 2)`, channel block `t % 2`, and is never cut at the array's end. -/
theorem point_block : ∀ t : Fin cfg0.N,
    win0_0.index t (0 : Fin 4) = 180 * (t.val / 2) + 179 * (t.val % 2)
    ∧ win0_0.index t (1 : Fin 4) = t.val % 2
    ∧ win0_0.index t (2 : Fin 4) = 0
    ∧ win0_0.index t (3 : Fin 4) = 0
    ∧ win0_0.xsize (grid0.coords t) (0 : Fin 4) = 1
    ∧ win0_0.xsize (grid0.coords t) (1 : Fin 4) = 21
    ∧ win0_0.xsize (grid0.coords t) (2 : Fin 4) = 36
    ∧ win0_0.xsize (grid0.coords t) (3 : Fin 4) = 36 :=
  (by decide +kernel : ∀ t : Fin grid0.N, _)

/-- An index of the array is under point `t`'s block iff each coordinate is in the block's range on its axis. -/
theorem mem_block (t : Fin cfg0.N) (i : S1440x64x36x36.Idx) :
    i ∈ ((cfg0.win 0).blk t).view.set
      ↔ ∀ a : Fin 4, win0_0.index t a * S1x21x36x36.size a ≤ (i a).val
          ∧ (i a).val < win0_0.index t a * S1x21x36x36.size a + win0_0.xsize (grid0.coords t) a := by
  show i ∈ ((View.whole main_v0).slice (win0_0.rect t)).set ↔ _
  rw [View.set_slice_whole, Rect.mem_set_unit]
  exact Iff.rfl

/-- Side `s` of clip `i 0 / 180` covers the index `i` when `i` is at that side's frame and in its channel fold. -/
theorem covered_of_side (i : S1440x64x36x36.Idx) (s : Nat) (hs : s < 2)
    (h0 : (i 0).val = 180 * ((i 0).val / 180) + 179 * s) (h1 : 21 * s ≤ (i 1).val) (h2 : (i 1).val < 21 * s + 21) :
    ∃ t : Fin cfg0.N, (cfg0.win 0).flush t = true ∧ i ∈ ((cfg0.win 0).blk t).view.set := by
  have hi0 : (i 0).val < 1440 := (i 0).isLt
  have hi2 : (i 2).val < 36 := (i 2).isLt
  have hi3 : (i 3).val < 36 := (i 3).isLt
  obtain ⟨t, ht⟩ : ∃ t : Fin cfg0.N, t.val = 2 * ((i 0).val / 180) + s :=
    ⟨⟨2 * ((i 0).val / 180) + s, by rw [show cfg0.N = 16 from N_0]; omega⟩, rfl⟩
  have hdiv : t.val / 2 = (i 0).val / 180 := by omega
  have hmod : t.val % 2 = s := by omega
  obtain ⟨e0, e1, e2, e3, s0, s1, s2, s3⟩ := point_block t
  rw [hdiv, hmod] at e0
  rw [hmod] at e1
  refine ⟨t, flush0_0 t, ?_⟩
  rw [mem_block]
  intro a
  match a with
  | ⟨0, _⟩ =>
    show win0_0.index t (0 : Fin 4) * 1 ≤ (i 0).val
      ∧ (i 0).val < win0_0.index t (0 : Fin 4) * 1 + win0_0.xsize (grid0.coords t) (0 : Fin 4)
    omega
  | ⟨1, _⟩ =>
    show win0_0.index t (1 : Fin 4) * 21 ≤ (i 1).val
      ∧ (i 1).val < win0_0.index t (1 : Fin 4) * 21 + win0_0.xsize (grid0.coords t) (1 : Fin 4)
    omega
  | ⟨2, _⟩ =>
    show win0_0.index t (2 : Fin 4) * 36 ≤ (i 2).val
      ∧ (i 2).val < win0_0.index t (2 : Fin 4) * 36 + win0_0.xsize (grid0.coords t) (2 : Fin 4)
    omega
  | ⟨3, _⟩ =>
    show win0_0.index t (3 : Fin 4) * 36 ≤ (i 3).val
      ∧ (i 3).val < win0_0.index t (3 : Fin 4) * 36 + win0_0.xsize (grid0.coords t) (3 : Fin 4)
    omega

/-- The indices some point's block covers are exactly the boundary slabs. -/
theorem covered_iff (i : S1440x64x36x36.Idx) :
    (∃ t : Fin cfg0.N, (cfg0.win 0).flush t = true ∧ i ∈ ((cfg0.win 0).blk t).view.set)
      ↔ onSlab (i 0).val (i 1).val := by
  unfold onSlab
  constructor
  · rintro ⟨t, -, hi⟩
    rw [mem_block] at hi
    obtain ⟨e0, e1, e2, e3, s0, s1, s2, s3⟩ := point_block t
    have b0 : win0_0.index t (0 : Fin 4) * 1 ≤ (i 0).val
        ∧ (i 0).val < win0_0.index t (0 : Fin 4) * 1 + win0_0.xsize (grid0.coords t) (0 : Fin 4) := hi 0
    have b1 : win0_0.index t (1 : Fin 4) * 21 ≤ (i 1).val
        ∧ (i 1).val < win0_0.index t (1 : Fin 4) * 21 + win0_0.xsize (grid0.coords t) (1 : Fin 4) := hi 1
    -- the point's side decides the slab
    rcases Nat.mod_two_eq_zero_or_one t.val with hs | hs
    · rw [hs] at e0 e1
      left
      omega
    · rw [hs] at e0 e1
      right
      omega
  · rintro (⟨h0, h1⟩ | ⟨h0, h1, h2⟩)
    · exact covered_of_side i 0 (by omega) (by omega) (by omega) (by omega)
    · exact covered_of_side i 1 (by omega) (by omega) (by omega) (by omega)

/-- When the region is entered the result buffer holds a copy of the argument. -/
theorem entry_copy (c : Dev nD) :
    (V m c main_v0 : S1440x64x36x36.Idx → Elt F .f32) = m ((c : Thread nD τ).loc main_arg0) := by
  dsimp only [V, hostOps0]
  after_results
  rfl

/-- The result array after the run: the argument with the boundary slabs zeroed. -/
theorem final (c : Dev nD) :
    (dats m 0 c).arrAt 0 cfg0.N
      = zeroed (FloatOps.ofBits .f32 0x00000000#32) (m ((c : Thread nD τ).loc main_arg0)) := by
  funext i
  rw [(dats m 0 c).arrAt_eq_piecewise 0 _ (fun t _ => written_back m c t) i, A_eq]
  show (if _ then _ else (V m c main_v0 : S1440x64x36x36.Idx → Elt F .f32) i) = _
  rw [entry_copy]
  exact if_congr (covered_iff i) rfl rfl

/-- The kernel's run, read: the result array is the zeroed argument, and the argument is unchanged. -/
theorem run : θ_run defs (onTc (τ := τ) (main (F := F))) ⟨m, fun _ => 0, ρ⟩ fun r => ∀ c : Dev nD,
      r.2.mem ((c : Thread nD τ).loc main_v0)
        = zeroed (FloatOps.ofBits .f32 0x00000000#32) (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.Slabs

end
-- ==== Proof.RefIsSpec.lean ====
/-
  The reference, read at an index, is the argument with the boundary slabs zeroed.

  The reference views the array as [8, 180, 64, 36, 36], cuts the channels into the folds [0, 21), [21, 42) and
  [42, 64), replaces the first fold by "a zero frame, then frames 1 … 179" and the second by "frames 0 … 178,
  then a zero frame" (both along the frame axis), joins the three folds again and returns to the flat view.
  Each join is read at an index by the piece the joined coordinate falls in.
-/
import proofs.«428587_j6330781795061_3_alg».proof.Proof.Gen.ReferenceIdeal.Read
import proofs.«428587_j6330781795061_3_alg».proof.Proof.Spec
import Idealize.ShloMosaic.Lib.ValueIdx
import Idealize.ShloMosaic.Lib.Pipeline.Value

noncomputable section

namespace Cert.ReferenceIdeal.Slabs

open Cert.ReferenceIdeal Cert.ReferenceIdeal.Read Idealize.ShloMosaic Idealize.ShloMosaic.ValueIdx Cert.BoundarySlabs

variable {F : FTy → Type} [FloatOps F]

/-- The zero frame holds the zero word everywhere. -/
theorem zero_frame_apply (i : S8x1x21x36x36.Idx) : val_main_v4 (F := F) i = FloatOps.ofBits .f32 0x00000000#32 := by
  rw [val_main_v4_apply, val_main_cst_apply]

/-- The first fold after the shift: zero at a clip's first frame, the argument elsewhere. -/
theorem first_fold_apply (x0 : (⟨S1440x64x36x36, .f32⟩ : BufTy).Contents (Elt F)) (a : Fin 8) (t : Fin 180) (ch : Fin 21) (h w : Fin 36) :
    val_main_v6 (F := F) x0 (ix5 a t ch h w)
      = if t.val = 0 then FloatOps.ofBits .f32 0x00000000#32
        else val_main_v0 (F := F) x0 (ix5 a t (⟨ch.val, by omega⟩ : Fin 64) h w) := by
  unfold val_main_v6
  by_cases ht : t.val = 0
  · rw [if_pos ht]
    refine (concatenate_pair_apply_left (t := S8x180x21x36x36) (s₁ := S8x1x21x36x36) (s₂ := S8x179x21x36x36) _ _ _ _ (ix5 a t ch h w) rfl (ix5 a (⟨0, Nat.one_pos⟩ : Fin 1) ch h w) ?_).trans (zero_frame_apply _)
    intro b
    match b with
    | ⟨0, _⟩ => rfl
    | ⟨1, _⟩ => exact ht.symm
    | ⟨2, _⟩ => rfl
    | ⟨3, _⟩ => rfl
    | ⟨4, _⟩ => rfl
  · rw [if_neg ht]
    have ht1 : t.val - 1 < 179 := by have := t.isLt; omega
    refine (concatenate_pair_apply_right (t := S8x180x21x36x36) (s₁ := S8x1x21x36x36) (s₂ := S8x179x21x36x36) _ _ _ _ (ix5 a t ch h w) rfl rfl (ix5 a (⟨t.val - 1, ht1⟩ : Fin 179) ch h w) ?_ ?_).trans ?_
    · intro b hb
      match b with
      | ⟨0, _⟩ => rfl
      | ⟨1, _⟩ => exact absurd rfl hb
      | ⟨2, _⟩ => rfl
      | ⟨3, _⟩ => rfl
      | ⟨4, _⟩ => rfl
    · show (t.val - 1) + 1 = t.val
      omega
    · rw [val_main_v5_apply, val_main_v1_apply]
      refine congrArg (val_main_v0 (F := F) x0) (funext fun b => ?_)
      match b with
      | ⟨0, _⟩ => rfl
      | ⟨1, _⟩ => exact Fin.ext (by show 1 + (t.val - 1) = t.val; omega)
      | ⟨2, _⟩ => rfl
      | ⟨3, _⟩ => rfl
      | ⟨4, _⟩ => rfl

/-- The second fold after the shift: zero at a clip's last frame, the argument elsewhere. -/
theorem second_fold_apply (x0 : (⟨S1440x64x36x36, .f32⟩ : BufTy).Contents (Elt F)) (a : Fin 8) (t : Fin 180) (ch : Fin 21) (h w : Fin 36) :
    val_main_v8 (F := F) x0 (ix5 a t ch h w)
      = if t.val = 179 then FloatOps.ofBits .f32 0x00000000#32
        else val_main_v0 (F := F) x0 (ix5 a t (⟨21 + ch.val, by omega⟩ : Fin 64) h w) := by
  unfold val_main_v8
  by_cases ht : t.val = 179
  · rw [if_pos ht]
    refine (concatenate_pair_apply_right (t := S8x180x21x36x36) (s₁ := S8x179x21x36x36) (s₂ := S8x1x21x36x36) _ _ _ _ (ix5 a t ch h w) rfl rfl (ix5 a (⟨0, Nat.one_pos⟩ : Fin 1) ch h w) ?_ ?_).trans (zero_frame_apply _)
    · intro b hb
      match b with
      | ⟨0, _⟩ => rfl
      | ⟨1, _⟩ => exact absurd rfl hb
      | ⟨2, _⟩ => rfl
      | ⟨3, _⟩ => rfl
      | ⟨4, _⟩ => rfl
    · show 0 + 179 = t.val
      omega
  · rw [if_neg ht]
    have ht1 : t.val < 179 := by have := t.isLt; omega
    refine (concatenate_pair_apply_left (t := S8x180x21x36x36) (s₁ := S8x179x21x36x36) (s₂ := S8x1x21x36x36) _ _ _ _ (ix5 a t ch h w) rfl (ix5 a (⟨t.val, ht1⟩ : Fin 179) ch h w) ?_).trans ?_
    · intro b
      match b with
      | ⟨0, _⟩ => rfl
      | ⟨1, _⟩ => rfl
      | ⟨2, _⟩ => rfl
      | ⟨3, _⟩ => rfl
      | ⟨4, _⟩ => rfl
    · rw [val_main_v7_apply, val_main_v2_apply]
      refine congrArg (val_main_v0 (F := F) x0) (funext fun b => ?_)
      match b with
      | ⟨0, _⟩ => rfl
      | ⟨1, _⟩ => rfl
      | ⟨2, _⟩ => rfl
      | ⟨3, _⟩ => rfl
      | ⟨4, _⟩ => rfl

/-- The three folds joined again: zero on the two boundary slabs, the argument elsewhere. -/
theorem joined_apply (x0 : (⟨S1440x64x36x36, .f32⟩ : BufTy).Contents (Elt F)) (a : Fin 8) (t : Fin 180) (ch : Fin 64) (h w : Fin 36) :
    val_main_v9 (F := F) x0 (ix5 a t ch h w)
      = if (t.val = 0 ∧ ch.val < 21) ∨ (t.val = 179 ∧ 21 ≤ ch.val ∧ ch.val < 42) then FloatOps.ofBits .f32 0x00000000#32
        else val_main_v0 (F := F) x0 (ix5 a t ch h w) := by
  unfold val_main_v9
  by_cases h1 : ch.val < 21
  · refine (concatenate_apply_piece _ _ _ (ix5 a t ch h w) 0 (by simp) S8x180x21x36x36 (val_main_v6 (F := F) x0) rfl rfl 0 rfl
      (ix5 a t (⟨ch.val, h1⟩ : Fin 21) h w) ?_ ?_).trans ?_
    · intro b hb
      match b with
      | ⟨0, _⟩ => rfl
      | ⟨1, _⟩ => rfl
      | ⟨2, _⟩ => exact absurd rfl hb
      | ⟨3, _⟩ => rfl
      | ⟨4, _⟩ => rfl
    · show 0 + ch.val = ch.val
      omega
    · rw [first_fold_apply]
      by_cases ht : t.val = 0
      · rw [if_pos ht, if_pos (Or.inl ⟨ht, h1⟩)]
      · rw [if_neg ht, if_neg (by omega)]
  · by_cases h2 : ch.val < 42
    · refine (concatenate_apply_piece _ _ _ (ix5 a t ch h w) 1 (by simp) S8x180x21x36x36 (val_main_v8 (F := F) x0) rfl rfl 21 rfl
        (ix5 a t (⟨ch.val - 21, by omega⟩ : Fin 21) h w) ?_ ?_).trans ?_
      · intro b hb
        match b with
        | ⟨0, _⟩ => rfl
        | ⟨1, _⟩ => rfl
        | ⟨2, _⟩ => exact absurd rfl hb
        | ⟨3, _⟩ => rfl
        | ⟨4, _⟩ => rfl
      · show 21 + (ch.val - 21) = ch.val
        omega
      · rw [second_fold_apply]
        have e : (⟨21 + (ch.val - 21), by omega⟩ : Fin 64) = ch := Fin.ext (by show 21 + (ch.val - 21) = ch.val; omega)
        by_cases ht : t.val = 179
        · rw [if_pos ht, if_pos (Or.inr ⟨ht, by omega, h2⟩)]
        · rw [if_neg ht, if_neg (by omega)]
          exact congrArg (fun q => val_main_v0 (F := F) x0 (ix5 a t q h w)) e
    · have hc : ch.val < 64 := ch.isLt
      refine (concatenate_apply_piece _ _ _ (ix5 a t ch h w) 2 (by simp) S8x180x22x36x36 (val_main_v3 (F := F) x0) rfl rfl 42 rfl
        (ix5 a t (⟨ch.val - 42, by omega⟩ : Fin 22) h w) ?_ ?_).trans ?_
      · intro b hb
        match b with
        | ⟨0, _⟩ => rfl
        | ⟨1, _⟩ => rfl
        | ⟨2, _⟩ => exact absurd rfl hb
        | ⟨3, _⟩ => rfl
        | ⟨4, _⟩ => rfl
      · show 42 + (ch.val - 42) = ch.val
        omega
      · rw [val_main_v3_apply, if_neg (by omega)]
        refine congrArg (val_main_v0 (F := F) x0) (funext fun b => ?_)
        match b with
        | ⟨0, _⟩ => rfl
        | ⟨1, _⟩ => rfl
        | ⟨2, _⟩ => exact Fin.ext (by show 42 + (ch.val - 42) = ch.val; omega)
        | ⟨3, _⟩ => rfl
        | ⟨4, _⟩ => rfl

/-- The reference's result is the argument with the boundary slabs zeroed. -/
theorem reference_eq (x0 : (⟨S1440x64x36x36, .f32⟩ : BufTy).Contents (Elt F)) :
    val_main_v10 (F := F) x0 = zeroed (FloatOps.ofBits .f32 0x00000000#32) x0 := by
  funext i
  have h0 : (i 0).val < 1440 := (i 0).isLt
  have h1 : (i 1).val < 64 := (i 1).isLt
  have h2 : (i 2).val < 36 := (i 2).isLt
  have h3 : (i 3).val < 36 := (i 3).isLt
  rw [val_main_v10_apply]
  -- the flat index seen in the five-axis view: clip, frame of the clip, channel, row, column
  have hj : idx_main_v10 i = ix5 (⟨(i 0).val / 180, by omega⟩ : Fin 8) (⟨(i 0).val % 180, by omega⟩ : Fin 180)
      (⟨(i 1).val, h1⟩ : Fin 64) (⟨(i 2).val, h2⟩ : Fin 36) (⟨(i 3).val, h3⟩ : Fin 36) := by
    funext b
    match b with
    | ⟨0, _⟩ => exact Fin.ext (by show ((((i 0).val * 64 + (i 1).val) * 36 + (i 2).val) * 36 + (i 3).val) / 14929920 = (i 0).val / 180; omega)
    | ⟨1, _⟩ => exact Fin.ext (by show ((((i 0).val * 64 + (i 1).val) * 36 + (i 2).val) * 36 + (i 3).val) / 82944 % 180 = (i 0).val % 180; omega)
    | ⟨2, _⟩ => exact Fin.ext (by show ((((i 0).val * 64 + (i 1).val) * 36 + (i 2).val) * 36 + (i 3).val) / 1296 % 64 = (i 1).val; omega)
    | ⟨3, _⟩ => exact Fin.ext (by show ((((i 0).val * 64 + (i 1).val) * 36 + (i 2).val) * 36 + (i 3).val) / 36 % 36 = (i 2).val; omega)
    | ⟨4, _⟩ => exact Fin.ext (by show ((((i 0).val * 64 + (i 1).val) * 36 + (i 2).val) * 36 + (i 3).val) % 36 = (i 3).val; omega)
  rw [hj, joined_apply, val_main_v0_apply]
  -- and back: that five-axis index is the flat index `i`
  have hback : idx_main_v0 (ix5 (⟨(i 0).val / 180, by omega⟩ : Fin 8) (⟨(i 0).val % 180, by omega⟩ : Fin 180)
      (⟨(i 1).val, h1⟩ : Fin 64) (⟨(i 2).val, h2⟩ : Fin 36) (⟨(i 3).val, h3⟩ : Fin 36)) = i := by
    funext b
    match b with
    | ⟨0, _⟩ => exact Fin.ext (by show ((((((i 0).val / 180) * 180 + (i 0).val % 180) * 64 + (i 1).val) * 36 + (i 2).val) * 36 + (i 3).val) / 82944 = (i 0).val; omega)
    | ⟨1, _⟩ => exact Fin.ext (by show ((((((i 0).val / 180) * 180 + (i 0).val % 180) * 64 + (i 1).val) * 36 + (i 2).val) * 36 + (i 3).val) / 1296 % 64 = (i 1).val; omega)
    | ⟨2, _⟩ => exact Fin.ext (by show ((((((i 0).val / 180) * 180 + (i 0).val % 180) * 64 + (i 1).val) * 36 + (i 2).val) * 36 + (i 3).val) / 36 % 36 = (i 2).val; omega)
    | ⟨3, _⟩ => exact Fin.ext (by show ((((((i 0).val / 180) * 180 + (i 0).val % 180) * 64 + (i 1).val) * 36 + (i 2).val) * 36 + (i 3).val) % 36 = (i 3).val; omega)
  rw [hback]
  rfl

end Cert.ReferenceIdeal.Slabs

end
-- ==== Proof.lean ====
/-
  The zeroed boundary slabs of a batch of clips: the kernel against the reference.

  The argument is f32[1440, 64, 36, 36]: 8 clips of 180 frames, 64 channels, 36 × 36 values. Both programs return the
  argument with two slabs of every clip set to zero — the first 21 channels of the clip's first frame and the next 21
  channels of its last frame — and everything else unchanged (`Cert.BoundarySlabs.zeroed`).
  The kernel starts from a copy of the argument and writes 16 zero blocks over it, one per clip and side
  (`Cert.KernelIdeal.Slabs.run`); the reference splits the channels into three folds, pads and trims two of them along
  the frame axis and joins them again (`Cert.ReferenceIdeal.Slabs.reference_eq`). The zero is the same word on both
  sides, and no arithmetic is done on the argument's values, so the precondition is not used.
-/
import proofs.«428587_j6330781795061_3_alg».proof.Defs
import proofs.«428587_j6330781795061_3_alg».proof.Proof.Gen.Kernel
import proofs.«428587_j6330781795061_3_alg».proof.Proof.Gen.KernelIdeal
import proofs.«428587_j6330781795061_3_alg».proof.Proof.Gen.ReferenceIdeal
import proofs.«428587_j6330781795061_3_alg».proof.Proof.Gen.Pre_finite_inputs
import proofs.«428587_j6330781795061_3_alg».proof.Proof.Gen.ReferenceIdeal.Run
import proofs.«428587_j6330781795061_3_alg».proof.Proof.Gen.ReferenceIdeal.Read
import proofs.«428587_j6330781795061_3_alg».proof.Proof.KernelFrameP
import proofs.«428587_j6330781795061_3_alg».proof.Proof.KernelIdealFrameP
import proofs.«428587_j6330781795061_3_alg».proof.Proof.KernelIsSpec
import proofs.«428587_j6330781795061_3_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel runs and leaves its argument as it was. -/
theorem frame_kernel [Cert.Kernel.Facts] [Cert.Pre_finite_inputs.Facts] : Cert.frame_Kernel :=
  fun m ρ _ => Cert.Kernel.GenP.frame m ρ

/-- So does the idealized kernel. -/
theorem frame_kernel_ideal [Cert.KernelIdeal.Facts] [Cert.Pre_finite_inputs.Facts] : Cert.frame_KernelIdeal :=
  fun m ρ _ => Cert.KernelIdeal.GenP.frame m ρ

/-- The reference is a straight line of host operations: its run, with the result forgotten. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- Both results are the argument with the boundary slabs zeroed, and the arguments agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.KernelIdeal.Slabs.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.Slabs.reference_eq, hagree c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
